-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x2 : Shape := ⟨2, ![32768, 2]⟩
abbrev S4096x2 : Shape := ⟨2, ![4096, 2]⟩
abbrev S_ : Shape := ⟨0, ![]⟩

class Facts : Prop where
  bcast_S_S32768x2 : S_.BroadcastsInDim S32768x2 (![] : Fin 0 → Fin S32768x2.rank)
  reducesTo_S32768x2_S_d0_1 : S32768x2.ReducesTo [0, 1] S_
  h_S_ : 0 < S_.numel
  bcast_S_S4096x2 : S_.BroadcastsInDim S4096x2 (![] : Fin 0 → Fin S4096x2.rank)
  reducesTo_S4096x2_S_d0_1 : S4096x2.ReducesTo [0, 1] S_

variable [Facts]

def fn {F : FTy → Type} [FloatOps F] (main_arg0 : FVec F S32768x2 .f32) (main_arg1 : FVec F S4096x2 .f32) : IVec S_ 1 :=
  let main_v0 : FVec F S32768x2 .f32 := Host.absf main_arg0
  let main_cst : FVec F S_ .f32 := constant S_ .f32 0x7F800000#32
  let main_v1 : FVec F S32768x2 .f32 := broadcastInDim S32768x2 ![] bcast_S_S32768x2 main_cst
  let main_v2 : IVec S32768x2 1 := cmpf .olt main_v0 main_v1
  let main_c : IVec S_ 1 := constantI S_ 1 1#1
  let main_v3 : IVec S_ 1 := (fun x v => Host.reduce IntOp.andi x v reducesTo_S32768x2_S_d0_1 h_S_) main_v2 main_c
  let main_v4 : FVec F S4096x2 .f32 := Host.absf main_arg1
  let main_cst_0 : FVec F S_ .f32 := constant S_ .f32 0x7F800000#32
  let main_v5 : FVec F S4096x2 .f32 := broadcastInDim S4096x2 ![] bcast_S_S4096x2 main_cst_0
  let main_v6 : IVec S4096x2 1 := cmpf .olt main_v4 main_v5
  let main_c_1 : IVec S_ 1 := constantI S_ 1 1#1
  let main_v7 : IVec S_ 1 := (fun x v => Host.reduce IntOp.andi x v reducesTo_S4096x2_S_d0_1 h_S_) main_v6 main_c_1
  let main_v8 : IVec S_ 1 := andi main_v3 main_v7
  main_v8
-- ==== Kernel.lean ====
abbrev S32768x2 : Shape := ⟨2, ![32768, 2]⟩
abbrev S4096x2 : Shape := ⟨2, ![4096, 2]⟩
abbrev S2x4096 : Shape := ⟨2, ![2, 4096]⟩
abbrev S32768x3 : Shape := ⟨2, ![32768, 3]⟩
abbrev S512x2 : Shape := ⟨2, ![512, 2]⟩
abbrev S512x3 : Shape := ⟨2, ![512, 3]⟩
abbrev S512x1 : Shape := ⟨2, ![512, 1]⟩
abbrev S1x4096 : Shape := ⟨2, ![1, 4096]⟩
abbrev S512x4096 : Shape := ⟨2, ![512, 4096]⟩
abbrev S512 : Shape := ⟨1, ![512]⟩

abbrev nBuf : Space → Nat
  | .hbm => 4
  | .vmem => 5
  | .smem => 0
  | _ => 0

abbrev bufTy : (tb : Table) → Fin (tcTables nBuf tb) → BufTy
  | .hbm, ⟨0, _⟩ => ⟨S32768x2, .f32⟩
  | .hbm, ⟨1, _⟩ => ⟨S4096x2, .f32⟩
  | .hbm, ⟨2, _⟩ => ⟨S2x4096, .f32⟩
  | .hbm, ⟨3, _⟩ => ⟨S32768x3, .f32⟩
  | .local _ .vmem, ⟨0, _⟩ => ⟨S512x2, .f32⟩
  | .local _ .vmem, ⟨1, _⟩ => ⟨S512x2, .f32⟩
  | .local _ .vmem, ⟨2, _⟩ => ⟨S2x4096, .f32⟩
  | .local _ .vmem, ⟨3, _⟩ => ⟨S512x3, .f32⟩
  | .local _ .vmem, ⟨4, _⟩ => ⟨S512x3, .f32⟩
  | _, _ => ⟨S32768x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x3 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  transposes_S4096x2_S2x4096_1_0 : S4096x2.Transposes [1, 0] S2x4096
  inb_S512x2_S512x2_0_0 : ∀ a, (![0, 0] : Fin 2 → Nat) a + S512x2.size a ≤ S512x2.size a
  h_S512x2 : 0 < S512x2.numel
  inb_S2x4096_S2x4096_0_0 : ∀ a, (![0, 0] : Fin 2 → Nat) a + S2x4096.size a ≤ S2x4096.size a
  h_S2x4096 : 0 < S2x4096.numel
  shapeCasts_S2x4096_S2x4096 : S2x4096.ShapeCasts S2x4096
  slices_S512x2_o0_0_S512x1 : S512x2.Slices ![0, 0] S512x1
  slices_S512x2_o0_1_S512x1 : S512x2.Slices ![0, 1] S512x1
  slices_S2x4096_o0_0_S1x4096 : S2x4096.Slices ![0, 0] S1x4096
  slices_S2x4096_o1_0_S1x4096 : S2x4096.Slices ![1, 0] S1x4096
  broadcasts_S512x1_S512x4096 : S512x1.Broadcasts S512x4096
  broadcasts_S1x4096_S512x4096 : S1x4096.Broadcasts S512x4096
  reduces_S512x4096_S512 : S512x4096.Reduces [1] S512
  shapeCasts_S512_S512x1 : S512.ShapeCasts S512x1
  inb_S512x3_S512x2_0_0 : ∀ a, (![0, 0] : Fin 2 → Nat) a + S512x2.size a ≤ S512x3.size a
  inb_S512x3_S512x1_0_2 : ∀ a, (![0, 2] : Fin 2 → Nat) a + S512x1.size a ≤ S512x3.size a
  h_S512x1 : 0 < S512x1.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2.size a ≤ S32768x2.size a
  hwx0_0 : ∀ i : grid0.Coords, EltTy.bits .f32 = 32 ∨ (Rect.block (s := S32768x2) S512x2.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2x4096.size a ≤ S2x4096.size a
  hwx0_1 : ∀ i : grid0.Coords, EltTy.bits .f32 = 32 ∨ (Rect.block (s := S2x4096) S2x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x3.size a ≤ S32768x3.size a
  hwx0_2 : ∀ i : grid0.Coords, EltTy.bits .f32 = 32 ∨ (Rect.block (s := S32768x3) S512x3.size (cc0_transform_2 i) (hinb0_2 i)).WholeWords (EltTy.packing .f32)

variable [Facts₀]

abbrev win0_0 : Pipeline.Window sig grid0 :=
  Pipeline.Window.ofSpec (Memref.whole main_arg0) S512x2.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S2x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S512x3.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S32768x2 : Shape := ⟨2, ![32768, 2]⟩
abbrev S4096x2 : Shape := ⟨2, ![4096, 2]⟩
abbrev S32768x1x2 : Shape := ⟨3, ![32768, 1, 2]⟩
abbrev S1x4096x2 : Shape := ⟨3, ![1, 4096, 2]⟩
abbrev S32768x4096x2 : Shape := ⟨3, ![32768, 4096, 2]⟩
abbrev S_ : Shape := ⟨0, ![]⟩
abbrev S32768x4096 : Shape := ⟨2, ![32768, 4096]⟩
abbrev S32768 : Shape := ⟨1, ![32768]⟩
abbrev S32768x1 : Shape := ⟨2, ![32768, 1]⟩
abbrev S32768x3 : Shape := ⟨2, ![32768, 3]⟩

abbrev nBuf : Space → Nat
  | .hbm => 15
  | .vmem => 0
  | .smem => 0
  | _ => 0

abbrev bufTy : (tb : Table) → Fin (tcTables nBuf tb) → BufTy
  | .hbm, ⟨0, _⟩ => ⟨S32768x2, .f32⟩
  | .hbm, ⟨1, _⟩ => ⟨S4096x2, .f32⟩
  | .hbm, ⟨2, _⟩ => ⟨S32768x1x2, .f32⟩
  | .hbm, ⟨3, _⟩ => ⟨S1x4096x2, .f32⟩
  | .hbm, ⟨4, _⟩ => ⟨S32768x4096x2, .f32⟩
  | .hbm, ⟨5, _⟩ => ⟨S32768x4096x2, .f32⟩
  | .hbm, ⟨6, _⟩ => ⟨S32768x4096x2, .f32⟩
  | .hbm, ⟨7, _⟩ => ⟨S32768x4096x2, .f32⟩
  | .hbm, ⟨8, _⟩ => ⟨S_, .f32⟩
  | .hbm, ⟨9, _⟩ => ⟨S32768x4096, .f32⟩
  | .hbm, ⟨10, _⟩ => ⟨S32768x4096, .f32⟩
  | .hbm, ⟨11, _⟩ => ⟨S_, .f32⟩
  | .hbm, ⟨12, _⟩ => ⟨S32768, .f32⟩
  | .hbm, ⟨13, _⟩ => ⟨S32768x1, .f32⟩
  | .hbm, ⟨14, _⟩ => ⟨S32768x3, .f32⟩
  | _, _ => ⟨S32768x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_cst_0 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩

abbrev nD : Nat := 1
abbrev τ : Topo := Topo.v7x

variable {F : FTy → Type} [FloatOps F]

class Facts₀ : Prop where
  bcast_S32768x2_S32768x1x2_0_2 : S32768x2.BroadcastsInDim S32768x1x2 (![0, 2] : Fin 2 → Fin S32768x1x2.rank)
  bcast_S4096x2_S1x4096x2_1_2 : S4096x2.BroadcastsInDim S1x4096x2 (![1, 2] : Fin 2 → Fin S1x4096x2.rank)
  bcast_S32768x1x2_S32768x4096x2_0_1_2 : S32768x1x2.BroadcastsInDim S32768x4096x2 (![0, 1, 2] : Fin 3 → Fin S32768x4096x2.rank)
  bcast_S1x4096x2_S32768x4096x2_0_1_2 : S1x4096x2.BroadcastsInDim S32768x4096x2 (![0, 1, 2] : Fin 3 → Fin S32768x4096x2.rank)
  reducesTo_S32768x4096x2_S32768x4096_d2 : S32768x4096x2.ReducesTo [2] S32768x4096
  h_S_ : 0 < S_.numel
  reducesTo_S32768x4096_S32768_d1 : S32768x4096.ReducesTo [1] S32768
  bcast_S32768_S32768x1_0 : S32768.BroadcastsInDim S32768x1 (![0] : Fin 1 → Fin S32768x1.rank)
  concatenates_S32768x2_S32768x1_S32768x3_d1 : Shape.Concatenates [S32768x2, S32768x1] S32768x3 1

variable [Facts₀]

class Facts : Prop extends Facts₀ where

variable [Facts]
-- ==== Proof.Spec.lean ====
/-
  The value both programs compute, as ONE function of the two argument arrays, index by index on the extended reals.

  For a query point x_p = (x[p,0], x[p,1]) and a boundary point b_j = (b[j,0], b[j,1]) the Euclidean distance is
  d(p, j) = √((x[p,0] − b[j,0])² + (x[p,1] − b[j,1])²); the nearest-boundary distance of p is the minimum of d(p, j)
  over all 4096 boundary points, taken from +∞.  The result array has three columns: columns 0 and 1 repeat the query
  point, column 2 holds its nearest-boundary distance.
-/
import Idealize.ShloMosaic.PureOps.Ideal
import Idealize.ShloMosaic.PureOps.Ideal.Laws
import Idealize.ShloMosaic.Lib.ValueIdx

noncomputable section

namespace Cert.Nearest

open Idealize.ShloMosaic Idealize.ShloMosaic.ValueIdx

/-- The query points, the boundary points, the result. -/
abbrev SQ : Shape := ⟨2, ![32768, 2]⟩
abbrev SB : Shape := ⟨2, ![4096, 2]⟩
abbrev SO : Shape := ⟨2, ![32768, 3]⟩

/-- The squared coordinate difference (x[p,k] − b[j,k])². -/
def sq (x : SQ.Idx → EReal) (b : SB.Idx → EReal) (p : Fin 32768) (j : Fin 4096) (k : Fin 2) : EReal :=
  (x (ix2 p k) - b (ix2 j k)) * (x (ix2 p k) - b (ix2 j k))

/-- The distance from query point `p` to boundary point `j`. -/
def dist (x : SQ.Idx → EReal) (b : SB.Idx → EReal) (p : Fin 32768) (j : Fin 4096) : EReal :=
  Ideal.sqrt (sq x b p j 0 + sq x b p j 1)

/-- The least distance from query point `p` to a boundary point: the minimum over all of them, from +∞
    (the word `0x7F800000`, the same on both sides and never evaluated). -/
def nearest (x : SQ.Idx → EReal) (b : SB.Idx → EReal) (p : Fin 32768) : EReal :=
  (Finset.univ : Finset (Fin 4096)).fold min (Ideal.ofBits .f32 0x7F800000#32) (dist x b p)

/-- The result: row `p` is (x[p,0], x[p,1], nearest p). -/
def G (x : SQ.Idx → EReal) (b : SB.Idx → EReal) : SO.Idx → EReal := fun i =>
  if h : (i 1).val < 2 then x (ix2 (i 0) ⟨(i 1).val, h⟩) else nearest x b (i 0)

theorem G_left (x : SQ.Idx → EReal) (b : SB.Idx → EReal) (p : Fin 32768) (q : Fin 3) (h : q.val < 2) :
    G x b (ix2 p q) = x (ix2 p ⟨q.val, h⟩) := by
  show (if h : q.val < 2 then _ else _) = _
  rw [dif_pos h]

theorem G_right (x : SQ.Idx → EReal) (b : SB.Idx → EReal) (p : Fin 32768) (q : Fin 3) (h : ¬ q.val < 2) :
    G x b (ix2 p q) = nearest x b p := by
  show (if h : q.val < 2 then _ else _) = _
  rw [dif_neg h]

/-- The sum over the two coordinates, from zero, is the sum of the two squares: on the extended reals
    `0 + (a + b) = a + b` with no condition on `a`, `b`. -/
theorem zero_add_sum_two (f : Fin 2 → EReal) : (0 : EReal) + ∑ k : Fin 2, f k = f 0 + f 1 := by
  rw [Fin.sum_univ_two, zero_add]

end Cert.Nearest

end
-- ==== Proof.RefValue.lean ====
/-
  The reference's result, read index by index, is the specification `Cert.Nearest.G`.

  The host program broadcasts the query points and the boundary points to [32768, 4096, 2], subtracts, squares, sums
  the last axis from zero (so entry (p, j) is 0 + ((x[p,0] − b[j,0])² + (x[p,1] − b[j,1])²)), takes the square root,
  takes the minimum along the boundary axis from +∞, and joins the result as a third column to the query points.
-/
import proofs.«163135_j8203387535652_1_alg».proof.Proof.Gen.ReferenceIdeal.Read
import proofs.«163135_j8203387535652_1_alg».proof.Proof.Spec
import Idealize.ShloMosaic.PureOps.Reduce
import Idealize.ShloMosaic.PureOps.Ideal.Laws
import Idealize.ShloMosaic.Lib.ValueIdx
import Idealize.ShloMosaic.Lib.Pipeline.Value

noncomputable section

namespace Cert.ReferenceIdeal.RefValue

open Cert.ReferenceIdeal Cert.ReferenceIdeal.Gen Cert.ReferenceIdeal.Read
open Idealize.ShloMosaic Idealize.ShloMosaic.ValueIdx Cert.Nearest

variable (x0 : S32768x2.Idx → EReal) (x1 : S4096x2.Idx → EReal)

/-- One squared coordinate difference: the product stage at (p, j, k). -/
theorem sq_at (p : Fin 32768) (j : Fin 4096) (k : Fin 2) :
    val_main_v5 (F := Ideal) x0 x1 (idx_main_v6 (ix2 p j) k) = sq x0 x1 p j k := by
  have e0 : idx_main_v0 (idx_main_v2 (idx_main_v6 (ix2 p j) k)) = ix2 p k :=
    funext fun a => Fin.ext (by match a with | ⟨0, _⟩ => rfl | ⟨1, _⟩ => rfl)
  have e1 : idx_main_v1 (idx_main_v3 (idx_main_v6 (ix2 p j) k)) = ix2 j k :=
    funext fun a => Fin.ext (by match a with | ⟨0, _⟩ => rfl | ⟨1, _⟩ => rfl)
  rw [val_main_v5_apply, val_main_v4_apply, val_main_v2_apply, val_main_v0_apply, val_main_v3_apply,
    val_main_v1_apply, e0, e1]
  rfl

/-- The distance stage at (p, j): the square root of the two squares' sum (the sum's zero start adds nothing). -/
theorem dist_at (p : Fin 32768) (j : Fin 4096) :
    val_main_v7 (F := Ideal) x0 x1 (ix2 p j) = dist x0 x1 p j := by
  rw [val_main_v7_apply, val_main_v6_apply, val_main_cst_apply]
  simp only [sq_at]
  rw [Ideal.ofBits_def, Ideal.ofBits_zero_f32, zero_add_sum_two]
  rfl

/-- The reduction's shape fact in the form that names the inserted coordinate. -/
theorem reduces_rows : S32768x4096.Reduces [1] S32768 := by decide

/-- The minimum stage at p: the minimum over the boundary points of the distance, from +∞. -/
theorem nearest_at (p : Fin 32768) :
    val_main_v8 (F := Ideal) x0 x1 (ix1 p) = nearest x0 x1 p := by
  unfold val_main_v8
  rw [Host.reduce_eq_fold_single (FloatOps.minimumf (F := Ideal) (φ := .f32)) _ _ reducesTo_S32768x4096_S32768_d1
    reduces_rows h_S_ (ix1 p)]
  have hf : (val_main_v7 (F := Ideal) x0 x1 ∘ reduces_rows.lift (ix1 p)) = dist x0 x1 p := funext fun j => by
    show val_main_v7 (F := Ideal) x0 x1 (reduces_rows.lift (ix1 p) j) = _
    rw [show reduces_rows.lift (ix1 p) j = ix2 p j from
      funext fun a => Fin.ext (by match a with | ⟨0, _⟩ => rfl | ⟨1, _⟩ => rfl)]
    exact dist_at x0 x1 p j
  rw [hf]
  rfl

/-- The reference's result is `G` of the two arguments. -/
theorem result_eq : val_main_v10 (F := Ideal) x0 x1 = G x0 x1 := by
  funext i
  obtain ⟨p, q, rfl⟩ : ∃ (p : Fin 32768) (q : Fin 3), i = ix2 p q := ⟨i 0, i 1, eq_ix2 i⟩
  unfold val_main_v10
  by_cases hq : q.val < 2
  · rw [G_left x0 x1 p q hq]
    exact concatenate_pair_apply_left (t := S32768x3) (s₁ := S32768x2) (s₂ := S32768x1) (1 : Fin 2) x0
      (val_main_v9 (F := Ideal) x0 x1) concatenates_S32768x2_S32768x1_S32768x3_d1 (ix2 p q) rfl
      (ix2 p ⟨q.val, hq⟩) (fun b => by match b with | ⟨0, _⟩ => rfl | ⟨1, _⟩ => rfl)
  · rw [G_right x0 x1 p q hq]
    have hq2 : q.val = 2 := by have := q.isLt; omega
    refine (concatenate_pair_apply_right (t := S32768x3) (s₁ := S32768x2) (s₂ := S32768x1) (1 : Fin 2) x0
      (val_main_v9 (F := Ideal) x0 x1) concatenates_S32768x2_S32768x1_S32768x3_d1 (ix2 p q) rfl rfl
      (ix2 p (0 : Fin 1)) (fun b hb => by match b with | ⟨0, _⟩ => rfl | ⟨1, _⟩ => exact absurd rfl hb)
      (by show (0 : Nat) + 2 = q.val; omega)).trans ?_
    rw [val_main_v9_apply]
    rw [show idx_main_v9 (ix2 p (0 : Fin 1)) = ix1 p from funext fun a => Fin.ext (by match a with | ⟨0, _⟩ => rfl)]
    exact nearest_at x0 x1 p

end Cert.ReferenceIdeal.RefValue

end
-- ==== Proof.KernelBlock.lean ====
/-
  What the kernel body leaves in its output block, as one function of the two blocks it loads.

  The body stores the loaded 512 × 2 block of query points into columns 0 and 1 of its 512 × 3 output block, and into
  column 2 the row-wise minimum, over the 4096 boundary points, of
  √((x[r,0] − bt[0,j])² + (x[r,1] − bt[1,j])²), where bt is the 2 × 4096 transposed table of boundary points.
-/
import proofs.«163135_j8203387535652_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Reduce
import Idealize.ShloMosaic.PureOps.Ideal.Laws

set_option maxRecDepth 16384

noncomputable section

namespace Cert.KernelIdeal.Block

open Cert.KernelIdeal Cert.KernelIdeal.Gen
open Idealize.ShloMosaic Idealize.ShloMosaic.TcCoe Idealize.ShloMosaic.Tactic Idealize.ShloMosaic.ValueIdx
open Idealize.SL Idealize.SL.Sem

variable {F : FTy → Type} [FloatOps F]

theorem hz : (![0, 0] : Fin 2 → Nat) = fun _ => 0 := funext fun a => by match a with | ⟨0, _⟩ => rfl | ⟨1, _⟩ => rfl

/-- The output block: columns 0 and 1 are the query block, column 2 the body's reduced column. -/
def blockOut (x0 : Vec F S512x2 .f32) (x1 : Vec F S2x4096 .f32) : Vec F S512x3 .f32 := fun y =>
  if h : (y 1).val < 2 then x0 (ix2 (y 0) ⟨(y 1).val, h⟩) else k0_pay1 x0 x1 (ix2 (y 0) (0 : Fin 1))

/-- `blockOut` on column 2: the reduced column's entry of that row. -/
theorem blockOut_col2 (x0 : Vec F S512x2 .f32) (x1 : Vec F S2x4096 .f32) (y : S512x3.Idx) (x : S512x1.Idx)
    (h0 : (y 0).val = (x 0).val) (h1 : (y 1).val = 2) : blockOut x0 x1 y = k0_pay1 x0 x1 x := by
  have hx1 : (x 1).val < 1 := (x 1).isLt
  unfold blockOut
  rw [dif_neg (by omega)]
  exact congrArg (k0_pay1 x0 x1) (funext fun a => Fin.ext (by
    match a with
    | ⟨0, _⟩ => exact h0
    | ⟨1, _⟩ => show 0 = (x 1).val; omega))

/-- `blockOut` on columns 0 and 1: the query block's entry. -/
theorem blockOut_left (x0 : Vec F S512x2 .f32) (x1 : Vec F S2x4096 .f32) (y : S512x3.Idx) (x : S512x2.Idx)
    (h0 : (y 0).val = (x 0).val) (h1 : (y 1).val = (x 1).val) : blockOut x0 x1 y = x0 x := by
  have hx1 : (x 1).val < 2 := (x 1).isLt
  unfold blockOut
  rw [dif_pos (by omega)]
  exact congrArg x0 (funext fun a => Fin.ext (by
    match a with
    | ⟨0, _⟩ => exact h0
    | ⟨1, _⟩ => exact h1))

/-- The two stores tile the block (columns 0–1, column 2), and each store's value is `blockOut` on its rectangle. -/
theorem out_eq (c : Dev nD) (i : grid0.Coords) (arg1 : Memref sig .tc .vmem S512x2 .f32) (harg1 : arg1.IsWhole)
    (arg2 : Memref sig .tc .vmem S2x4096 .f32) (harg2 : arg2.IsWhole) (arg3 : Memref sig .tc .vmem S512x3 .f32)
    (harg3 : arg3.IsWhole) (x0 : Vec F S512x2 .f32) (x1 : Vec F S2x4096 .f32) :
    out0_A_2 c i arg1 harg1 arg2 harg2 arg3 harg3 x0 x1 = blockOut x0 x1 := by
  unfold out0_A_2
  rw [View.read_writes_eq_canon _ _ _ (cover0_A_2 c i arg1 harg1 arg2 harg2 arg3 harg3 x0 x1)]
  unfold kernelRun0_A
  dsimp only
  sl_unfold_words
  simp only [View.readAt_eq_ld, harg1.read_unread, harg2.read_unread, View.ld_unit_zero (S := S512x2) hz,
    View.ld_unit_zero (S := S2x4096) hz]
  funext y
  refine View.canon_apply_of_pieces (blockOut x0 x1) _
    (List.forall_mem_cons.mpr ⟨fun x => ?_, List.forall_mem_cons.mpr ⟨fun x => ?_, fun _ h => absurd h List.not_mem_nil⟩⟩) y ?_
  · dsimp only
    exact (blockOut_col2 x0 x1 ((Rect.unit (s := S512x3) ![0, 2] ![512, 1] inb_S512x3_S512x1_0_2).emb x) x
      (by show 0 + 1 * (x 0).val = (x 0).val; omega) (by
        have hx1 : (x 1).val < 1 := (x 1).isLt
        show 2 + 1 * (x 1).val = 2; omega)).symm
  · dsimp only
    exact (blockOut_left x0 x1 ((Rect.unit (s := S512x3) ![0, 0] ![512, 2] inb_S512x3_S512x2_0_0).emb x) x
      (by show 0 + 1 * (x 0).val = (x 0).val; omega) (by show 0 + 1 * (x 1).val = (x 1).val; omega)).symm
  · have hy0 : (y 0).val < 512 := (y 0).isLt
    have hy1 : (y 1).val < 3 := (y 1).isLt
    by_cases h : (y 1).val < 2
    · refine ⟨_, List.mem_cons_of_mem _ (List.mem_singleton_self _), ?_⟩
      rw [Rect.mem_set_unit]
      intro a
      match a with
      | ⟨0, _⟩ => show 0 ≤ (y 0).val ∧ (y 0).val < 0 + 512; omega
      | ⟨1, _⟩ => show 0 ≤ (y 1).val ∧ (y 1).val < 0 + 2; omega
    · refine ⟨_, List.mem_cons_self, ?_⟩
      rw [Rect.mem_set_unit]
      intro a
      match a with
      | ⟨0, _⟩ => show 0 ≤ (y 0).val ∧ (y 0).val < 0 + 512; omega
      | ⟨1, _⟩ => show 2 ≤ (y 1).val ∧ (y 1).val < 2 + 1; omega

end Cert.KernelIdeal.Block

end
-- ==== Proof.LibKeepdims.lean ====
/-
  Two layout facts for a reduction kept as a column: a length-`a` vector cast to an `a × 1` column reads, at
  row `p`, the vector at `p`; and an `a × 1` column broadcast to `a × b` reads, at `(p, c)`, the column at row `p`.
  Together they say that a row statistic (a row's sum, maximum, …) broadcast back over its row is that statistic
  at every column. Stated over literal rank-1 and rank-2 shapes with indices written by coordinates.
-/
import Idealize.ShloMosaic.Lib.ValueIdx
import Idealize.ShloMosaic.Lib.Pipeline.Value

namespace Cert.LibKeepdims

open Idealize.ShloMosaic Idealize.ShloMosaic.ValueIdx

variable {α : Type}

/-- An `[a]` array cast to `[a, 1]` reads, at `(p, u)`, the operand at `p`, whatever the unit coordinate `u`:
    the two indices have the same row-major position `p`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `[a, 1]` array broadcast to `[a, b]` reads, at `(p, c)`, the operand's one column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show 0 = if (1 : ℕ) = 1 then 0 else c.val
    rw [if_pos rfl]

end Cert.LibKeepdims
-- ==== Proof.KernelDist.lean ====
/-
  The reduced column the kernel body stores, read on the extended reals.

  From the loaded 512 × 2 block of query points and the 2 × 4096 transposed table of boundary points the body forms,
  for k = 0, 1, the 512 × 4096 matrix of differences x[r,k] − bt[k,j] (a column of the block broadcast along the rows
  against a row of the table broadcast down the columns), squares and adds them, takes the square root, and reduces
  each row by minimum from +∞.  At row r this is the least distance from query point r to a boundary point.
-/
import proofs.«163135_j8203387535652_1_alg».proof.Proof.Gen.KernelIdeal.Skeleton
import proofs.«163135_j8203387535652_1_alg».proof.Proof.LibKeepdims
import Idealize.ShloMosaic.Lib.Pipeline.Value
import Idealize.ShloMosaic.Lib.ValueIdx
import Idealize.ShloMosaic.Lib.ValueLayout
import Idealize.ShloMosaic.PureOps.Reduce
import Idealize.ShloMosaic.PureOps.Ideal.Laws

set_option maxRecDepth 16384

noncomputable section

namespace Cert.KernelIdeal.Dist

open Cert.KernelIdeal Cert.KernelIdeal.Gen
open Idealize.ShloMosaic Idealize.ShloMosaic.ValueIdx Cert.LibKeepdims

variable {F : FTy → Type} [FloatOps F]

/-- Coordinate `k` of every query point of the block minus coordinate `k` of every boundary point: the
    512 × 4096 matrix of differences, for k = 0 … -/
def diff0 (x0 : Vec F S512x2 .f32) (x1 : Vec F S2x4096 .f32) : FVec F S512x4096 .f32 :=
  subf (broadcastTo S512x4096 (extractStridedSlice S512x1 ![0, 0] x0 slices_S512x2_o0_0_S512x1) broadcasts_S512x1_S512x4096)
    (broadcastTo S512x4096 (extractStridedSlice S1x4096 ![0, 0] (shapeCast S2x4096 x1 shapeCasts_S2x4096_S2x4096)
      slices_S2x4096_o0_0_S1x4096) broadcasts_S1x4096_S512x4096)

/-- … and for k = 1. -/
def diff1 (x0 : Vec F S512x2 .f32) (x1 : Vec F S2x4096 .f32) : FVec F S512x4096 .f32 :=
  subf (broadcastTo S512x4096 (extractStridedSlice S512x1 ![0, 1] x0 slices_S512x2_o0_1_S512x1) broadcasts_S512x1_S512x4096)
    (broadcastTo S512x4096 (extractStridedSlice S1x4096 ![1, 0] (shapeCast S2x4096 x1 shapeCasts_S2x4096_S2x4096)
      slices_S2x4096_o1_0_S1x4096) broadcasts_S1x4096_S512x4096)

/-- The 512 × 4096 matrix of distances. -/
def dmat (x0 : Vec F S512x2 .f32) (x1 : Vec F S2x4096 .f32) : FVec F S512x4096 .f32 :=
  sqrt (addf (mulf (diff0 x0 x1) (diff0 x0 x1)) (mulf (diff1 x0 x1) (diff1 x0 x1)))

/-- The body's reduced column is the row minimum of the distance matrix, kept as a column. -/
theorem pay_eq (x0 : Vec F S512x2 .f32) (x1 : Vec F S2x4096 .f32) :
    k0_pay1 x0 x1 = shapeCast S512x1 (multiReduction .minimumf [1] S512 (dmat x0 x1) 0x7F800000#32
      reduces_S512x4096_S512 (.inl rfl) rfl) shapeCasts_S512_S512x1 := rfl

/-! ### At the extended reals -/

/-- The distance from row `r` of the query block to column `j` of the transposed boundary table. -/
def blkDist (x0 : S512x2.Idx → EReal) (x1 : S2x4096.Idx → EReal) (r : Fin 512) (j : Fin 4096) : EReal :=
  Ideal.sqrt ((x0 (ix2 r 0) - x1 (ix2 0 j)) * (x0 (ix2 r 0) - x1 (ix2 0 j))
    + (x0 (ix2 r 1) - x1 (ix2 1 j)) * (x0 (ix2 r 1) - x1 (ix2 1 j)))

theorem diff0_at (x0 : S512x2.Idx → EReal) (x1 : S2x4096.Idx → EReal) (r : Fin 512) (j : Fin 4096) :
    diff0 (F := Ideal) x0 x1 (ix2 r j) = x0 (ix2 r 0) - x1 (ix2 0 j) := by
  unfold diff0
  rw [subf_apply, broadcastTo_a1_ab_apply, broadcastTo_1b_ab_apply, shapeCast_self,
    slice2_axis1_apply 0 x0 slices_S512x2_o0_0_S512x1 r 0 0 rfl,
    slice2_axis0_apply 0 x1 slices_S2x4096_o0_0_S1x4096 0 j 0 rfl]

theorem diff1_at (x0 : S512x2.Idx → EReal) (x1 : S2x4096.Idx → EReal) (r : Fin 512) (j : Fin 4096) :
    diff1 (F := Ideal) x0 x1 (ix2 r j) = x0 (ix2 r 1) - x1 (ix2 1 j) := by
  unfold diff1
  rw [subf_apply, broadcastTo_a1_ab_apply, broadcastTo_1b_ab_apply, shapeCast_self,
    slice2_axis1_apply 1 x0 slices_S512x2_o0_1_S512x1 r 0 1 rfl,
    slice2_axis0_apply 1 x1 slices_S2x4096_o1_0_S1x4096 0 j 1 rfl]

theorem dmat_at (x0 : S512x2.Idx → EReal) (x1 : S2x4096.Idx → EReal) (r : Fin 512) (j : Fin 4096) :
    dmat (F := Ideal) x0 x1 (ix2 r j) = blkDist x0 x1 r j := by
  show Ideal.sqrt (diff0 (F := Ideal) x0 x1 (ix2 r j) * diff0 (F := Ideal) x0 x1 (ix2 r j)
    + diff1 (F := Ideal) x0 x1 (ix2 r j) * diff1 (F := Ideal) x0 x1 (ix2 r j)) = _
  rw [diff0_at, diff1_at]
  rfl

/-- The body's reduced column at row `r`: the minimum over the boundary points of the distance, from +∞. -/
theorem pay_at (x0 : S512x2.Idx → EReal) (x1 : S2x4096.Idx → EReal) (r : Fin 512) :
    k0_pay1 (F := Ideal) x0 x1 (ix2 r (0 : Fin 1))
      = (Finset.univ : Finset (Fin 4096)).fold min (Ideal.ofBits .f32 0x7F800000#32) (blkDist x0 x1 r) := by
  rw [pay_eq]
  refine (shapeCast_a_a1_apply _ shapeCasts_S512_S512x1 r 0).trans ?_
  refine (multiReduction_minimumf_eq_fold (F := Ideal) (dmat (F := Ideal) x0 x1) 0x7F800000#32 reduces_S512x4096_S512
    (.inl rfl) rfl (ix1 r)).trans ?_
  refine (reduces_S512x4096_S512.fold_filter_drop_single _ _ _ (ix1 r)).trans ?_
  have hf : (dmat (F := Ideal) x0 x1 ∘ reduces_S512x4096_S512.lift (ix1 r)) = blkDist x0 x1 r := funext fun j => by
    show dmat (F := Ideal) x0 x1 (reduces_S512x4096_S512.lift (ix1 r) j) = _
    rw [show reduces_S512x4096_S512.lift (ix1 r) j = ix2 r j from
      funext fun a => Fin.ext (by match a with | ⟨0, _⟩ => rfl | ⟨1, _⟩ => rfl)]
    exact dmat_at x0 x1 r j
  rw [hf]
  rfl

end Cert.KernelIdeal.Dist

end
-- ==== Proof.KernelValue.lean ====
/-
  The kernel's result array, as one function of the two argument arrays: `Cert.Nearest.G`.

  Grid point t stages rows 512·t … 512·t + 511 of the query points (window 0), the whole 2 × 4096 transposed table of
  boundary points (window 1, the host's transpose of the second argument), and writes back rows 512·t … 512·t + 511 of
  the 32768 × 3 result (window 2).  So what point t writes back is block t of `G`, and the 64 blocks tile the result.
-/
import proofs.«163135_j8203387535652_1_alg».proof.Proof.Gen.KernelIdeal.Value
import proofs.«163135_j8203387535652_1_alg».proof.Proof.KernelBlock
import proofs.«163135_j8203387535652_1_alg».proof.Proof.KernelDist
import proofs.«163135_j8203387535652_1_alg».proof.Proof.Spec
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

namespace Cert.KernelIdeal.ArrValue

open Cert.KernelIdeal Cert.KernelIdeal.Gen Cert.KernelIdeal.Block Cert.KernelIdeal.Dist
open Idealize.ShloMosaic Idealize.ShloMosaic.TcCoe Idealize.SL.Sem Idealize.ShloMosaic.ValueIdx Cert.Nearest
open Idealize.ShloMosaic.Pipeline (Dat)

/-! ### One block against the specification, over plain arrays -/

/-- If a 512 × 2 block `x0` is rows 512·T … of the query points `X` and `x1` is the transpose of the boundary points
    `B`, the body's output block is rows 512·T … of `G X B`. -/
theorem block_eq_G (X : SQ.Idx → EReal) (B : SB.Idx → EReal) (x0 : S512x2.Idx → EReal) (x1 : S2x4096.Idx → EReal)
    (T : Nat)
    (hx0 : ∀ (r : Fin 512) (k : Fin 2) (p : Fin 32768), p.val = T * 512 + r.val → x0 (ix2 r k) = X (ix2 p k))
    (hx1 : ∀ (k : Fin 2) (j : Fin 4096), x1 (ix2 k j) = B (ix2 j k))
    (y : S512x3.Idx) (i : SO.Idx) (h0 : (i 0).val = T * 512 + (y 0).val) (h1 : (i 1).val = (y 1).val) :
    blockOut (F := Ideal) x0 x1 y = G X B i := by
  obtain ⟨r, q, rfl⟩ : ∃ (r : Fin 512) (q : Fin 3), y = ix2 r q := ⟨y 0, y 1, eq_ix2 y⟩
  obtain ⟨p, q', rfl⟩ : ∃ (p : Fin 32768) (q' : Fin 3), i = ix2 p q' := ⟨i 0, i 1, eq_ix2 i⟩
  have hp : p.val = T * 512 + r.val := h0
  obtain rfl : q' = q := Fin.ext h1
  by_cases hq : q'.val < 2
  · rw [G_left X B p q' hq]
    refine (blockOut_left (F := Ideal) x0 x1 (ix2 r q') (ix2 r ⟨q'.val, hq⟩) rfl rfl).trans ?_
    exact hx0 r ⟨q'.val, hq⟩ p hp
  · rw [G_right X B p q' hq]
    refine (blockOut_col2 (F := Ideal) x0 x1 (ix2 r q') (ix2 r (0 : Fin 1)) rfl
      (by have := q'.isLt; show q'.val = 2; omega)).trans ?_
    refine (pay_at x0 x1 r).trans ?_
    unfold nearest
    refine congrArg (fun f => (Finset.univ : Finset (Fin 4096)).fold min (Ideal.ofBits .f32 0x7F800000#32) f)
      (funext fun j => ?_)
    unfold blkDist Cert.Nearest.dist Cert.Nearest.sq
    rw [hx0 r 0 p hp, hx0 r 1 p hp, hx1 0 j, hx1 1 j]

/-! ### The pipeline's blocks -/

variable (m : (ℓ : Loc nD τ sig) → Buf (Elt Ideal) ℓ) (ρ : Dev nD → PrngReg)

/-- The two argument arrays, and the blocks the body loads at point `t`, at their literal types. -/
abbrev xarr (c : Dev nD) : S32768x2.Idx → EReal := m ((c : Thread nD τ).loc main_arg0)
abbrev barr (c : Dev nD) : S4096x2.Idx → EReal := m ((c : Thread nD τ).loc main_arg1)
abbrev qblk (c : Dev nD) (t : Fin cfg0.N) : S512x2.Idx → EReal := iblk m c 0 t
abbrev bblk (c : Dev nD) (t : Fin cfg0.N) : S2x4096.Idx → EReal := iblk m c 1 t

/-- The printed index maps over the 64 grid points: windows 0 and 2 move down the rows with the point, window 1 stays. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0)

/-- The query block at point `t` is rows 512·t … of the first argument. -/
theorem qblk_at (c : Dev nD) (t : Fin cfg0.N) (r : Fin 512) (k : Fin 2) (p : Fin 32768) (hp : p.val = t.val * 512 + r.val) :
    qblk m c t (ix2 r k) = xarr m c (ix2 p k) := by
  obtain ⟨e0, e1, -, -, -, -⟩ := idx_facts t
  show V m c main_arg0 (((cfg0.win 0).blk t).view.emb (ix2 r k)) = _
  refine (congrFun (V_main_arg0 m c) _).trans ?_
  refine congrArg (xarr m c) (funext fun a => Fin.ext ?_)
  match a with
  | ⟨0, _⟩ => show win0_0.index t (0 : Fin 2) * 512 + 1 * r.val = p.val; omega
  | ⟨1, _⟩ => show win0_0.index t (1 : Fin 2) * 2 + 1 * k.val = k.val; omega

/-- The region finds, in the buffer window 1 stages, the transpose of the second argument. -/
theorem V_bt (c : Dev nD) :
    (V m c main_v0 : S2x4096.Idx → EReal) = transpose S2x4096 [1, 0] (barr m c) transposes_S4096x2_S2x4096_1_0 := by
  dsimp only [Gen.V, Gen.hostOps0]; after_results

/-- The table block at every point is the whole transposed table: entry (k, j) is coordinate k of boundary point j. -/
theorem bblk_at (c : Dev nD) (t : Fin cfg0.N) (k : Fin 2) (j : Fin 4096) :
    bblk m c t (ix2 k j) = barr m c (ix2 j k) := by
  obtain ⟨-, -, e2, e3, -, -⟩ := idx_facts t
  show V m c main_v0 (((cfg0.win 1).blk t).view.emb (ix2 k j)) = _
  have he : ((cfg0.win 1).blk t).view.emb (ix2 k j) = ix2 k j := funext fun a => Fin.ext (by
    match a with
    | ⟨0, _⟩ => show win0_1.index t (0 : Fin 2) * 2 + 1 * k.val = k.val; omega
    | ⟨1, _⟩ => show win0_1.index t (1 : Fin 2) * 4096 + 1 * j.val = j.val; omega)
  refine (congrArg (V m c main_v0) he).trans ?_
  refine (congrFun (V_bt m c) (ix2 k j)).trans ?_
  exact transpose_ix2_apply (barr m c) transposes_S4096x2_S2x4096_1_0 k j

/-! ### From blocks to the array -/

/-- What the output's staging buffer holds after the body at point `t`: `blockOut` of the two loaded blocks. -/
theorem outsAt_eq (c : Dev nD) (t : Fin cfg0.N) :
    outsAt0 m c t = blockOut (F := Ideal) (qblk m c t) (bblk m c t) :=
  Block.out_eq (F := Ideal) c (grid0.coords t) (ms0_0 t) (hs0_0 t) (ms0_1 t) (hs0_1 t) (ms0_2 t) (hs0_2 t) (qblk m c t) (bblk m c t)

/-- What point `t` writes back is block `t` of `G` of the two arguments. -/
theorem flushed_eq (c : Dev nD) (t : Fin cfg0.N) :
    (dats m 0 c).flushed 2 t = ((cfg0.win 2).blk t).view.read (Elt Ideal) (G (xarr m c) (barr m c)) := by
  rw [Cert.KernelIdeal.Value.flushed2, outsAt_eq]
  obtain ⟨-, -, -, -, e4, e5⟩ := idx_facts t
  funext y
  show blockOut (F := Ideal) (qblk m c t) (bblk m c t) y
    = G (xarr m c) (barr m c) (((cfg0.win 2).blk t).view.emb y)
  refine block_eq_G (xarr m c) (barr m c) (qblk m c t) (bblk m c t) t.val
    (fun r k p hp => qblk_at m c t r k p hp) (fun k j => bblk_at m c t k j) y _ ?_ ?_
  · show win0_2.index t (0 : Fin 2) * 512 + 1 * (y 0).val = t.val * 512 + (y 0).val; omega
  · show win0_2.index t (1 : Fin 2) * 3 + 1 * (y 1).val = (y 1).val; omega

/-- An index of the result is in point `t`'s block iff its row is among rows 512·t … 512·t + 511. -/
theorem mem_blk (t : Fin cfg0.N) (i : S32768x3.Idx) :
    i ∈ ((cfg0.win 2).blk t).view.set ↔ ∀ a : Fin 2, win0_2.index t a * S512x3.size a ≤ (i a).val
      ∧ (i a).val < win0_2.index t a * S512x3.size a + S512x3.size a := by
  show i ∈ ((View.whole main_v1).slice (win0_2.rect t)).set ↔ _
  rw [View.set_slice_whole, Rect.mem_set_unit]
  exact Iff.rfl

/-- Every row of the result is in the block of the point its row number divided by 512 names. -/
theorem cover (i : S32768x3.Idx) :
    ∃ t : Fin cfg0.N, (cfg0.win 2).flush t = true ∧ i ∈ ((cfg0.win 2).blk t).view.set := by
  have hi0 : (i 0).val < 32768 := (i 0).isLt
  have hi1 : (i 1).val < 3 := (i 1).isLt
  have hN : cfg0.N = 64 := N_0
  let t : Fin cfg0.N := ⟨(i 0).val / 512, by rw [hN]; omega⟩
  obtain ⟨-, -, -, -, e4, e5⟩ := idx_facts t
  have htv : t.val = (i 0).val / 512 := rfl
  refine ⟨t, flush0_2 t, ?_⟩
  rw [mem_blk]
  intro a
  match a with
  | ⟨0, _⟩ =>
    show win0_2.index t (0 : Fin 2) * 512 ≤ (i 0).val ∧ (i 0).val < win0_2.index t (0 : Fin 2) * 512 + 512
    omega
  | ⟨1, _⟩ =>
    show win0_2.index t (1 : Fin 2) * 3 ≤ (i 1).val ∧ (i 1).val < win0_2.index t (1 : Fin 2) * 3 + 3
    omega

/-- The result array after the run is `G` of the two arguments. -/
theorem final (c : Dev nD) : (dats m 0 c).arrAt 2 cfg0.N = G (xarr m c) (barr m c) :=
  (dats m 0 c).arrAt_eq_of_cover 2 (G (xarr m c) (barr m c)) (fun t _ => flushed_eq m c t) cover

/-- The kernel's run, read: the result at `G` of the arguments, the arguments unchanged. -/
theorem run : θ_run defs (onTc (τ := τ) (main (F := Ideal))) ⟨m, fun _ => 0, ρ⟩ fun r => ∀ c : Dev nD,
      r.2.mem ((c : Thread nD τ).loc main_v1) = G (xarr m c) (barr m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩)
    (Cert.KernelIdeal.Value.run_blocks m ρ)

end Cert.KernelIdeal.ArrValue

end
-- ==== Proof.lean ====
/-
  The proof of `Cert.Claim`: the Pallas kernel and its jnp reference compute, on the extended reals, the same
  32768 × 3 array from 32768 query points x and 4096 boundary points b in the plane.

  Row p of the result is (x[p,0], x[p,1], min_j √((x[p,0] − b[j,0])² + (x[p,1] − b[j,1])²)), the minimum taken from +∞
  (`Cert.Nearest.G`, Proof/Spec.lean).  The reference forms all 32768 × 4096 × 2 differences, squares, sums the last axis
  from zero, takes roots, reduces by minimum and joins the column to x (Proof/RefValue.lean).  The kernel walks the query
  points 512 rows at a time against the whole transposed table of boundary points, writes the two squares' sum directly
  and stores the query block and the reduced column side by side (Proof/KernelBlock.lean, Proof/KernelDist.lean); its 64
  output blocks tile the result (Proof/KernelValue.lean).  The two sides apply the same operations to the same numbers:
  the only laws used are 0 + a = a, and that a minimum over a finite set does not depend on the order it is folded in; no
  finiteness of the inputs is needed.  The three frames are the generated runs; the idealization rewrote nothing.
-/
import proofs.«163135_j8203387535652_1_alg».proof.Defs
import proofs.«163135_j8203387535652_1_alg».proof.Proof.Gen.Kernel
import proofs.«163135_j8203387535652_1_alg».proof.Proof.Gen.Kernel.Skeleton
import proofs.«163135_j8203387535652_1_alg».proof.Proof.Gen.Kernel.Launch
import proofs.«163135_j8203387535652_1_alg».proof.Proof.Gen.Kernel.Points
import proofs.«163135_j8203387535652_1_alg».proof.Proof.Gen.Kernel.Frame
import proofs.«163135_j8203387535652_1_alg».proof.Proof.Gen.KernelIdeal
import proofs.«163135_j8203387535652_1_alg».proof.Proof.Gen.KernelIdeal.Skeleton
import proofs.«163135_j8203387535652_1_alg».proof.Proof.Gen.KernelIdeal.Launch
import proofs.«163135_j8203387535652_1_alg».proof.Proof.Gen.KernelIdeal.Points
import proofs.«163135_j8203387535652_1_alg».proof.Proof.Gen.KernelIdeal.Frame
import proofs.«163135_j8203387535652_1_alg».proof.Proof.Gen.ReferenceIdeal
import proofs.«163135_j8203387535652_1_alg».proof.Proof.Gen.Pre_finite_inputs
import proofs.«163135_j8203387535652_1_alg».proof.Proof.Gen.KernelIdeal.Value
import proofs.«163135_j8203387535652_1_alg».proof.Proof.Gen.ReferenceIdeal.Run
import proofs.«163135_j8203387535652_1_alg».proof.Proof.Gen.ReferenceIdeal.Read
import proofs.«163135_j8203387535652_1_alg».proof.Proof.RefValue
import proofs.«163135_j8203387535652_1_alg».proof.Proof.KernelValue
import Idealize.ShloMosaic.Adequacy
import Idealize.ShloMosaic.Init

noncomputable section

namespace Cert.Proof

open Idealize.ShloMosaic Idealize.ShloMosaic.TcCoe Idealize.SL.Sem

/-- The word-level kernel runs and leaves its arguments alone. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference is a straight line of host operations: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end with their result at `G` of the (agreeing) arguments. -/
theorem algebraic : Cert.algebraic_KernelIdeal_ReferenceIdeal := by
  intro m ρ m' ρ' _ hagree
  refine ⟨_, Cert.KernelIdeal.ArrValue.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  exact (Cert.ReferenceIdeal.Read.val_main_v10_eq _ _).trans (Cert.ReferenceIdeal.RefValue.result_eq _ _)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
